-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S800000x1 .f32) (main_arg3 : FVec F S256x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S1x128 : Shape := ⟨2, ![1, 128]⟩
abbrev S2000x128 : Shape := ⟨2, ![2000, 128]⟩

abbrev nBuf : Space → Nat
  | .hbm => 40
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S256x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S256x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x256, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.Body.lean ====
/-
  What the kernel body stores, read at one entry of its block.

  At a grid point the body holds a block  x  of 2000 rows of the features, the same rows  y  of the neighbour means,
  the two 128 × 128 halves  A, B  of the weight matrix and the bias as a 1 × 128 row  β. It narrows the four matrices
  to bf16 (the identity on the extended reals), forms the two products into zero accumulators, adds them, adds the
  bias row repeated over the 2000 rows, and stores the result. At row  p  and channel  q  that is
      ( Σ_{k < 128} x[p, k] · A[k, q]  +  Σ_{k < 128} y[p, k] · B[k, q] )  +  β[0, q].
-/
import proofs.«152887_j54863912239193_1_alg».proof.Proof.Gen.KernelIdeal.Skeleton
import proofs.«152887_j54863912239193_1_alg».proof.Proof.LibDense
import proofs.«152887_j54863912239193_1_alg».proof.Proof.LibBiasRow

noncomputable section

open scoped BigOperators

namespace Cert.Sage.Body

open Cert.KernelIdeal Cert.KernelIdeal.Gen
open Idealize.ShloMosaic Idealize.ShloMosaic.ValueIdx

/-- The stored value at (p, q): the two row-by-column sums and the bias entry. -/
theorem stored_apply (x y : Vec Ideal S2000x128 .f32) (A B : Vec Ideal S128x128 .f32) (β : Vec Ideal S1x128 .f32)
    (p : Fin 2000) (q : Fin 128) :
    k0_pay1 (F := Ideal) x y A B β (ix2 p q)
      = ((∑ k : Fin 128, x (ix2 p k) * A (ix2 k q)) + ∑ k : Fin 128, y (ix2 p k) * B (ix2 k q))
          + β (ix2 (0 : Fin 1) q) := by
  unfold k0_pay1
  -- the casts of a shape to itself are the identity
  rw [shapeCast_self y, shapeCast_self A, shapeCast_self B, shapeCast_self β]
  -- a sum of arrays at an entry is the sum of the entries; each product into zeros is its row-by-column sum; the
  -- repeated row reads its one row
  rw [addf_apply, addf_apply,
    Cert.Dense.matmul_zero_plain_apply dot_S2000x128_S128x128_S2000x128_1_0_0_1_n_n rfl rfl rfl rfl rfl rfl,
    Cert.Dense.matmul_zero_plain_apply dot_S2000x128_S128x128_S2000x128_1_0_0_1_n_n rfl rfl rfl rfl rfl rfl,
    Cert.BiasRow.stretch_row_apply]
  -- narrowing to bf16 is the identity on the extended reals
  rfl

end Cert.Sage.Body

end
-- ==== Proof.Update.lean ====
/-
  The linear update of a graph-convolution layer, as one function of its arrays, in the two arrangements the two
  programs use.

  For node features  X  and neighbour means  M  (both 50000 × 128), a weight matrix  W  (256 × 128) and a bias  b  (128),
  the layer's output at node  r  and output channel  c  is
      out[r, c] = Σ_{k < 256} [X | M][r, k] · W[k, c]  +  b[c],
  where  [X | M]  joins the two arrays along the channel axis. A sum over 256 consecutive indices is the sum over the
  first 128 plus the sum over the last 128 (`sum_halves`: only commutativity and associativity of addition, which
  hold on the extended reals, infinities included), so
      out[r, c] = ( Σ_{k < 128} X[r, k] · W[k, c]  +  Σ_{k < 128} M[r, k] · W[128 + k, c] )  +  b[c]
  (`update`). One program computes the second line from the matrix's two halves taken as separate 128 × 128 arrays and
  the bias as a 1 × 128 row (`halves`; `halves_eq_update`); the other computes the first line (see the module that
  reads it).
-/
import Idealize.ShloMosaic.PureOps.Ideal
import Idealize.ShloMosaic.Lib.ValueIdx
import Idealize.ShloMosaic.Lib.Pipeline.Value
import Mathlib.Algebra.BigOperators.Fin
import proofs.«152887_j54863912239193_1_alg».proof.Proof.LibBiasRow

noncomputable section

open scoped BigOperators

namespace Cert.Sage

open Idealize.ShloMosaic Idealize.ShloMosaic.ValueIdx

/-- Index  k  of the first half of 256. -/
abbrev lo (k : Fin 128) : Fin 256 := ⟨k.val, by have := k.isLt; omega⟩
/-- Index  128 + k  of the second half of 256. -/
abbrev hi (k : Fin 128) : Fin 256 := ⟨128 + k.val, by have := k.isLt; omega⟩

/-- A sum over 256 consecutive indices is the sum over the first 128 plus the sum over the last 128. -/
theorem sum_halves {A : Type} [AddCommMonoid A] (g : Fin 256 → A) :
    ∑ k : Fin 256, g k = ∑ k : Fin 128, g (lo k) + ∑ k : Fin 128, g (hi k) :=
  Fin.sum_univ_add (a := 128) (b := 128) g

/-- The layer's output: features against the matrix's rows 0..127, neighbour means against rows 128..255, plus bias. -/
def update (X M : (⟨2, ![50000, 128]⟩ : Shape).Idx → EReal) (W : (⟨2, ![256, 128]⟩ : Shape).Idx → EReal)
    (b : (⟨1, ![128]⟩ : Shape).Idx → EReal) : (⟨2, ![50000, 128]⟩ : Shape).Idx → EReal :=
  fun i => ((∑ k : Fin 128, X (ix2 (i 0) k) * W (ix2 (lo k) (i 1)))
      + ∑ k : Fin 128, M (ix2 (i 0) k) * W (ix2 (hi k) (i 1))) + b (ix1 (i 1))

/-- The same with the two halves of the matrix given as separate 128 × 128 arrays and the bias as a 1 × 128 row. -/
def halves (X M : (⟨2, ![50000, 128]⟩ : Shape).Idx → EReal) (A B : (⟨2, ![128, 128]⟩ : Shape).Idx → EReal)
    (β : (⟨2, ![1, 128]⟩ : Shape).Idx → EReal) : (⟨2, ![50000, 128]⟩ : Shape).Idx → EReal :=
  fun i => ((∑ k : Fin 128, X (ix2 (i 0) k) * A (ix2 k (i 1)))
      + ∑ k : Fin 128, M (ix2 (i 0) k) * B (ix2 k (i 1))) + β (ix2 (0 : Fin 1) (i 1))

/-- Equal arrays give equal outputs. -/
theorem halves_congr {X X' M M' : (⟨2, ![50000, 128]⟩ : Shape).Idx → EReal} {A A' B B' : (⟨2, ![128, 128]⟩ : Shape).Idx → EReal}
    {β β' : (⟨2, ![1, 128]⟩ : Shape).Idx → EReal} (hX : X = X') (hM : M = M') (hA : A = A') (hB : B = B') (hβ : β = β') :
    halves X M A B β = halves X' M' A' B' β' := by
  subst hX hM hA hB hβ; rfl

/-- Rows 0..127 of the matrix, read at (k, c): the matrix at (k, c). -/
theorem top_apply {α : Type} (W : (⟨2, ![256, 128]⟩ : Shape).Idx → α)
    (h : (⟨2, ![256, 128]⟩ : Shape).Slices ![0, 0] ⟨2, ![128, 128]⟩) (k c : Fin 128) :
    extractStridedSlice ⟨2, ![128, 128]⟩ ![0, 0] W h (ix2 k c) = W (ix2 (lo k) c) :=
  extractStridedSlice_apply ![0, 0] W h (ix2 k c) (ix2 (lo k) c) fun a =>
    match a with
    | ⟨0, _⟩ => by show k.val = 0 + k.val; omega
    | ⟨1, _⟩ => by show c.val = 0 + c.val; omega

/-- Rows 128..255 of the matrix, read at (k, c): the matrix at (128 + k, c). -/
theorem bottom_apply {α : Type} (W : (⟨2, ![256, 128]⟩ : Shape).Idx → α)
    (h : (⟨2, ![256, 128]⟩ : Shape).Slices ![128, 0] ⟨2, ![128, 128]⟩) (k c : Fin 128) :
    extractStridedSlice ⟨2, ![128, 128]⟩ ![128, 0] W h (ix2 k c) = W (ix2 (hi k) c) :=
  extractStridedSlice_apply ![128, 0] W h (ix2 k c) (ix2 (hi k) c) fun a =>
    match a with
    | ⟨0, _⟩ => by show 128 + k.val = 128 + k.val; rfl
    | ⟨1, _⟩ => by show c.val = 0 + c.val; omega

/-- Computing from the two halves of the matrix and the bias as a row is computing the layer's output. -/
theorem halves_eq_update (X M : (⟨2, ![50000, 128]⟩ : Shape).Idx → EReal) (W : (⟨2, ![256, 128]⟩ : Shape).Idx → EReal)
    (b : (⟨1, ![128]⟩ : Shape).Idx → EReal)
    (h0 : (⟨2, ![256, 128]⟩ : Shape).Slices ![0, 0] ⟨2, ![128, 128]⟩)
    (h1 : (⟨2, ![256, 128]⟩ : Shape).Slices ![128, 0] ⟨2, ![128, 128]⟩)
    (hsc : (⟨1, ![128]⟩ : Shape).ShapeCasts ⟨2, ![1, 128]⟩) :
    halves X M (extractStridedSlice ⟨2, ![128, 128]⟩ ![0, 0] W h0) (extractStridedSlice ⟨2, ![128, 128]⟩ ![128, 0] W h1)
        (shapeCast ⟨2, ![1, 128]⟩ b hsc)
      = update X M W b := by
  funext i
  unfold halves update
  -- entry by entry: each half of the matrix is the matrix at the shifted row, the bias row is the bias
  rw [Cert.BiasRow.cast_row_apply hsc b (i 1)]
  refine congrArg₂ (· + ·) (congrArg₂ (· + ·) ?_ ?_) rfl
  · exact Finset.sum_congr rfl fun k _ => by rw [top_apply W h0 k (i 1)]
  · exact Finset.sum_congr rfl fun k _ => by rw [bottom_apply W h1 k (i 1)]

end Cert.Sage

end
-- ==== Proof.Blocks.lean ====
/-
  From the 25 blocks to the whole output array.

  The grid has 25 points. Point  t  stages rows  2000·t .. 2000·t + 1999  of the features and of the neighbour means
  (all 128 channels), the two 128 × 128 halves of the weight matrix whole, and the 1 × 128 bias row whole, and writes
  back the same 2000 rows of the output (`index_facts`: the printed index maps, decided over the 25 points). So row  p
  of a block is row  2000·t + p  of its array (`rowOf`) and a half-matrix block is the half-matrix itself: stated for
  ANY arrays of the right shapes (`rows_apply`, `means_apply`, `top_apply`, `bottom_apply`, `bias_apply`), as is the
  consequence that the stored block is block  t  of `Cert.Sage.halves` of those arrays (`block_entry`). What point  t
  writes back is therefore block  t  of ONE function of the arrays as the region finds them (`written_eq`). The 25
  blocks cover every row (row  r  is in block  r / 2000 , `cover`), hence the output array ends holding that function
  (`final`).
-/
import proofs.«152887_j54863912239193_1_alg».proof.Proof.Gen.KernelIdeal.Value
import proofs.«152887_j54863912239193_1_alg».proof.Proof.Body
import proofs.«152887_j54863912239193_1_alg».proof.Proof.Update

noncomputable section

open scoped BigOperators

namespace Cert.Sage.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The body's rectangles start at the origin of their buffers. -/
theorem origin : (![0, 0] : Fin 2 → Nat) = fun _ => 0 := funext fun a => by fin_cases a <;> rfl

/-- The printed index maps over the 25 points: the features, the neighbour means and the output move with the point
    along the rows; the half-matrices and the bias row stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A point's number is below 25. -/
theorem point_lt (t : Fin cfg0.N) : t.val < 25 := lt_of_lt_of_eq t.isLt N_0

/-- Row  p  of block  t  is row  2000·t + p  of the array. -/
def rowOf (t : Fin cfg0.N) (p : Fin 2000) : Fin 50000 :=
  ⟨t.val * 2000 + p.val, by have := point_lt t; have := p.isLt; omega⟩

/-! Block  t  of an array, read through its window, at the block's literal type; the array is ANY array. -/

abbrev rowsBlk (X : Vec Ideal S50000x128 .f32) (t : Fin cfg0.N) : Vec Ideal S2000x128 .f32 :=
  ((cfg0.win 0).blk t).view.read (Elt Ideal) X
abbrev meansBlk (M : Vec Ideal S50000x128 .f32) (t : Fin cfg0.N) : Vec Ideal S2000x128 .f32 :=
  ((cfg0.win 1).blk t).view.read (Elt Ideal) M
abbrev topBlk (A : Vec Ideal S128x128 .f32) (t : Fin cfg0.N) : Vec Ideal S128x128 .f32 :=
  ((cfg0.win 2).blk t).view.read (Elt Ideal) A
abbrev bottomBlk (B : Vec Ideal S128x128 .f32) (t : Fin cfg0.N) : Vec Ideal S128x128 .f32 :=
  ((cfg0.win 3).blk t).view.read (Elt Ideal) B
abbrev biasBlk (β : Vec Ideal S1x128 .f32) (t : Fin cfg0.N) : Vec Ideal S1x128 .f32 :=
  ((cfg0.win 4).blk t).view.read (Elt Ideal) β

/-- The features' block at (p, k) is the features at (2000·t + p, k). -/
theorem rows_apply (X : Vec Ideal S50000x128 .f32) (t : Fin cfg0.N) (p : Fin 2000) (k : Fin 128) :
    rowsBlk X t (ix2 p k) = X (ix2 (rowOf t p) k) := by
  obtain ⟨e0, e1, -⟩ := index_facts t
  show X (((cfg0.win 0).blk t).view.emb (ix2 p k)) = X (ix2 (rowOf t p) k)
  refine congrArg X (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The neighbour means' block at (p, k) is the neighbour means at (2000·t + p, k). -/
theorem means_apply (M : Vec Ideal S50000x128 .f32) (t : Fin cfg0.N) (p : Fin 2000) (k : Fin 128) :
    meansBlk M t (ix2 p k) = M (ix2 (rowOf t p) k) := by
  obtain ⟨-, -, e0, e1, -⟩ := index_facts t
  show M (((cfg0.win 1).blk t).view.emb (ix2 p k)) = M (ix2 (rowOf t p) k)
  refine congrArg M (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The first half-matrix's block is the half-matrix. -/
theorem top_apply (A : Vec Ideal S128x128 .f32) (t : Fin cfg0.N) (k q : Fin 128) :
    topBlk A t (ix2 k q) = A (ix2 k q) := by
  obtain ⟨-, -, -, -, e0, e1, -⟩ := index_facts t
  show A (((cfg0.win 2).blk t).view.emb (ix2 k q)) = A (ix2 k q)
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The second half-matrix's block is the half-matrix. -/
theorem bottom_apply (B : Vec Ideal S128x128 .f32) (t : Fin cfg0.N) (k q : Fin 128) :
    bottomBlk B t (ix2 k q) = B (ix2 k q) := by
  obtain ⟨-, -, -, -, -, -, e0, e1, -⟩ := index_facts t
  show B (((cfg0.win 3).blk t).view.emb (ix2 k q)) = B (ix2 k q)
  refine congrArg B (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias row's block is the bias row. -/
theorem bias_apply (β : Vec Ideal S1x128 .f32) (t : Fin cfg0.N) (q : Fin 128) :
    biasBlk β t (ix2 (0 : Fin 1) q) = β (ix2 (0 : Fin 1) q) := by
  obtain ⟨-, -, -, -, -, -, -, -, e0, e1, -⟩ := index_facts t
  show β (((cfg0.win 4).blk t).view.emb (ix2 (0 : Fin 1) q)) = β (ix2 (0 : Fin 1) q)
  refine congrArg β (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- Entry (p, q) of the output's block  t  is entry (2000·t + p, q) of the output array. -/
theorem out_emb (t : Fin cfg0.N) (p : Fin 2000) (q : Fin 128) :
    ((cfg0.win 5).blk t).view.emb (ix2 p q) = ix2 (rowOf t p) q := by
  obtain ⟨-, -, -, -, -, -, -, -, -, -, e0, e1⟩ := index_facts t
  refine funext fun a => Fin.ext ?_
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-- For ANY five arrays: what the body stores from their blocks at point  t , at entry (p, q), is the layer's output
    of the arrays at the entry of the output array that (p, q) of block  t  is. -/
theorem block_entry (X M : Vec Ideal S50000x128 .f32) (A B : Vec Ideal S128x128 .f32) (β : Vec Ideal S1x128 .f32)
    (t : Fin cfg0.N) (p : Fin 2000) (q : Fin 128) :
    k0_pay1 (F := Ideal) (rowsBlk X t) (meansBlk M t) (topBlk A t) (bottomBlk B t) (biasBlk β t) (ix2 p q)
      = halves X M A B β (((cfg0.win 5).blk t).view.emb (ix2 p q)) := by
  refine (Body.stored_apply (rowsBlk X t) (meansBlk M t) (topBlk A t) (bottomBlk B t) (biasBlk β t) p q).trans ?_
  rw [out_emb t p q]
  unfold halves
  refine congrArg₂ (· + ·) (congrArg₂ (· + ·) ?_ ?_) (bias_apply β t q)
  · exact Finset.sum_congr rfl fun k _ => by rw [rows_apply X t p k, top_apply A t k q]
  · exact Finset.sum_congr rfl fun k _ => by rw [means_apply M t p k, bottom_apply B t k q]

/-- WHAT POINT  t  WRITES BACK is block  t  of the layer's output computed from the arrays as the region finds them. -/
theorem written_eq (c : Dev nD) (t : Fin cfg0.N) :
    (dats m 0 c).flushed 5 t
      = ((cfg0.win 5).blk t).view.read (Elt Ideal)
          (halves (V m c (Pipeline.arrRef spec0 0)) (V m c (Pipeline.arrRef spec0 1)) (V m c (Pipeline.arrRef spec0 2))
            (V m c (Pipeline.arrRef spec0 3)) (V m c (Pipeline.arrRef spec0 4))) := by
  rw [Cert.KernelIdeal.Value.flushed5]
  unfold out0_5 iblk
  rw [View.canon_unit_zero origin]
  simp only [View.ld_unit_zero (S := S2000x128) origin, View.ld_unit_zero (S := S128x128) origin,
    View.ld_unit_zero (S := S1x128) origin]
  funext j
  obtain ⟨p, q, rfl⟩ : ∃ (p : Fin 2000) (q : Fin 128), j = ix2 p q := ⟨j 0, j 1, eq_ix2 j⟩
  exact block_entry (V m c (Pipeline.arrRef spec0 0)) (V m c (Pipeline.arrRef spec0 1)) (V m c (Pipeline.arrRef spec0 2))
    (V m c (Pipeline.arrRef spec0 3)) (V m c (Pipeline.arrRef spec0 4)) t p q

/-- An index of the output array is in point  t 's block iff each coordinate is in the block's range on its axis. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v28).slice (win0_5.rect t)).set ↔ _
  rw [View.set_slice_whole, Rect.mem_set_unit]
  exact Iff.rfl

/-- Every entry of the output array is in some point's block: row  r  is in block  r / 2000 . -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, -, -, e0, e1⟩ := index_facts t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- THE OUTPUT ARRAY after the run: the layer's output computed from the arrays as the region finds them. -/
theorem final (c : Dev nD) :
    (dats m 0 c).arrAt 5 cfg0.N
      = halves (V m c (Pipeline.arrRef spec0 0)) (V m c (Pipeline.arrRef spec0 1)) (V m c (Pipeline.arrRef spec0 2))
          (V m c (Pipeline.arrRef spec0 3)) (V m c (Pipeline.arrRef spec0 4)) :=
  (dats m 0 c).arrAt_eq_of_cover 5 _ (fun t _ => written_eq m c t) cover

end Cert.Sage.Blocks

end
-- ==== Proof.EntryArrays.lean ====
/-
  What the kernel region finds in the four arrays that the host operations before it compute.

  Before the region the program computes, from the node features  X  (50000 × 128), the edge list (two rows of
  800000 node numbers: destinations and sources) and the edge weights  ω  (800000 × 1), the weighted neighbour mean
      nm[v, :] = ( Σ_{e : dst(e) = v}  ω_e · X[src(e), :] )  /  max( #{e : dst(e) = v}, 1 ),
  by a row gather, a product, two scatter-additions, a maximum and a quotient. The reference program computes the
  same array by the same operations in the same order with the same literals, so the array is named here by the
  reference's own stage for it and is never opened: nothing below depends on what a gather or a scatter-addition does.
  The other three arrays are re-layings of arguments: the weight matrix's rows 0..127 and 128..255, and the bias
  row given a leading axis of extent one.
-/
import proofs.«152887_j54863912239193_1_alg».proof.Proof.Gen.KernelIdeal.Frame
import proofs.«152887_j54863912239193_1_alg».proof.Proof.Gen.ReferenceIdeal.Read
import Idealize.ShloMosaic.Lib.StableHlo.Run

noncomputable section

namespace Cert.Sage.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The neighbour mean as the region finds it is the reference's neighbour mean of the same three arguments: the two
    programs spell it with the same operations, so the two terms are one. -/
theorem mean_eq (c : Dev nD) :
    (V m c main_v24 : S50000x128.Idx → EReal)
      = Cert.ReferenceIdeal.Read.val_main_v24 (F := Ideal) (m ((c : Thread nD τ).loc main_arg0))
          (m ((c : Thread nD τ).loc main_arg1)) (m ((c : Thread nD τ).loc main_arg2)) := by
  dsimp only [V, hostOps0]
  after_results_simp <;> rfl

/-- Rows 0..127 of the weight matrix. -/
theorem top_eq (c : Dev nD) :
    (V m c main_v25 : S128x128.Idx → EReal)
      = extractStridedSlice S128x128 ![0, 0] (m ((c : Thread nD τ).loc main_arg3)) slices_S256x128_S128x128_0_0 := by
  dsimp only [V, hostOps0]
  after_results_simp <;> rfl

/-- Rows 128..255 of the weight matrix. -/
theorem bottom_eq (c : Dev nD) :
    (V m c main_v26 : S128x128.Idx → EReal)
      = extractStridedSlice S128x128 ![128, 0] (m ((c : Thread nD τ).loc main_arg3)) slices_S256x128_S128x128_128_0 := by
  dsimp only [V, hostOps0]
  after_results_simp <;> rfl

/-- The bias row with a leading axis of extent one. -/
theorem biasRow_eq (c : Dev nD) :
    (V m c main_v27 : S1x128.Idx → EReal)
      = shapeCast S1x128 (m ((c : Thread nD τ).loc main_arg4)) shapeCasts_S128_S1x128 := by
  dsimp only [V, hostOps0]
  after_results_simp <;> rfl

end Cert.Sage.Entry

end
-- ==== Proof.KernelRun.lean ====
/-
  The idealized kernel program's run, with its result named as the layer's output of the ARGUMENTS.

  The output array ends holding the layer's output computed from the arrays the region finds (the module on the
  blocks). Those arrays are: the features as launched; the neighbour means, which are the reference's neighbour
  means of the same arguments; rows 0..127 and rows 128..255 of the weight matrix; the bias with a leading unit
  axis (the module on the region's entry). Computing from the two halves and the bias row is computing the layer's
  output from the whole matrix and the bias (`Cert.Sage.halves_eq_update`).
-/
import proofs.«152887_j54863912239193_1_alg».proof.Proof.Blocks
import proofs.«152887_j54863912239193_1_alg».proof.Proof.EntryArrays

noncomputable section

namespace Cert.Sage.Kernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The output array after the run is the layer's output of the five arguments as launched. -/
theorem result_eq (c : Dev nD) :
    (dats m 0 c).arrAt 5 cfg0.N
      = update (m ((c : Thread nD τ).loc main_arg0))
          (Cert.ReferenceIdeal.Read.val_main_v24 (F := Ideal) (m ((c : Thread nD τ).loc main_arg0))
            (m ((c : Thread nD τ).loc main_arg1)) (m ((c : Thread nD τ).loc main_arg2)))
          (m ((c : Thread nD τ).loc main_arg3)) (m ((c : Thread nD τ).loc main_arg4)) := by
  refine (Blocks.final m c).trans ?_
  -- each array the region finds, as a function of the arguments; then the two arrangements of the output
  refine (halves_congr (V_main_arg0 m c) (Entry.mean_eq m c) (Entry.top_eq m c) (Entry.bottom_eq m c)
    (Entry.biasRow_eq m c)).trans ?_
  exact halves_eq_update _ _ _ _ slices_S256x128_S128x128_0_0 slices_S256x128_S128x128_128_0 shapeCasts_S128_S1x128

/-- Every weakly fair execution of the idealized kernel program terminates with the result at the layer's output of
    the arguments and the arguments unchanged. -/
theorem run : θ_run defs (onTc (τ := τ) (main (F := Ideal))) ⟨m, fun _ => 0, ρ⟩ fun r => ∀ c : Dev nD,
      r.2.mem ((c : Thread nD τ).loc main_v28)
        = update (m ((c : Thread nD τ).loc main_arg0))
            (Cert.ReferenceIdeal.Read.val_main_v24 (F := Ideal) (m ((c : Thread nD τ).loc main_arg0))
              (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩)
    (Cert.KernelIdeal.Value.run_blocks m ρ)

end Cert.Sage.Kernel

end
-- ==== Proof.Reference.lean ====
/-
  The reference program's result is the layer's output (`Cert.Sage.update`).

  The reference joins the features  X  and the neighbour means  M  along the channel axis into a 50000 × 256 array,
  multiplies it with the 256 × 128 weight matrix and adds the bias laid out over the rows. The joined array at
  column  k < 128  is  X  at column  k , and at column  128 + k  it is  M  at column  k  (`joined_lo`, `joined_hi`); the
  product at (r, c) is the sum over 256 columns, which splits into its two halves of 128 (`Cert.Sage.sum_halves`).
  The neighbour means stay the reference's own stage for them, unopened.
-/
import proofs.«152887_j54863912239193_1_alg».proof.Proof.Gen.ReferenceIdeal.Read
import proofs.«152887_j54863912239193_1_alg».proof.Proof.Update

noncomputable section

open scoped BigOperators

namespace Cert.Sage.Ref

open Cert.ReferenceIdeal Cert.ReferenceIdeal.Gen Cert.ReferenceIdeal.Read
open Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S800000x1, .f32⟩ : BufTy).Contents (Elt Ideal)) (x3 : (⟨S256x128, .f32⟩ : BufTy).Contents (Elt Ideal))
  (x4 : (⟨S128, .f32⟩ : BufTy).Contents (Elt Ideal))

/-- The joined array at a column of its first half is the features at that column. -/
theorem joined_lo (r : Fin 50000) (k : Fin 128) :
    val_main_v25 (F := Ideal) x0 x1 x2 (ix2 r (lo k)) = x0 (ix2 r k) := by
  unfold val_main_v25
  exact concatenate_pair_apply_left 1 x0 _ concatenates_S50000x128_S50000x128_S50000x256_d1 (ix2 r (lo k)) rfl (ix2 r k)
    fun b => match b with
      | ⟨0, _⟩ => rfl
      | ⟨1, _⟩ => rfl

/-- The joined array at a column of its second half is the neighbour means at that column less 128. -/
theorem joined_hi (r : Fin 50000) (k : Fin 128) :
    val_main_v25 (F := Ideal) x0 x1 x2 (ix2 r (hi k)) = val_main_v24 (F := Ideal) x0 x1 x2 (ix2 r k) := by
  unfold val_main_v25
  exact concatenate_pair_apply_right 1 x0 _ concatenates_S50000x128_S50000x128_S50000x256_d1 (ix2 r (hi k)) rfl rfl (ix2 r k)
    (fun b => match b with
      | ⟨0, _⟩ => fun _ => rfl
      | ⟨1, _⟩ => fun h => absurd rfl h)
    (by show k.val + 128 = 128 + k.val; omega)

/-- The reference's result, entry by entry, is the layer's output of the features, the neighbour means, the weight
    matrix and the bias. -/
theorem result_eq :
    val_main_v29 (F := Ideal) x0 x1 x2 x3 x4 = update x0 (val_main_v24 (F := Ideal) x0 x1 x2) x3 x4 := by
  funext i
  obtain ⟨r, c, rfl⟩ : ∃ (r : Fin 50000) (c : Fin 128), i = ix2 r c := ⟨i 0, i 1, eq_ix2 i⟩
  -- the sum, the product as a sum over 256 columns, the bias through its two layouts; then the sum in two halves
  rw [val_main_v29_apply, val_main_v26_apply, val_main_v28_apply, val_main_v27_apply, sum_halves]
  unfold update
  rw [Ideal.addf_def]
  refine congrArg₂ (· + ·) (congrArg₂ (· + ·) ?_ ?_) ?_
  · refine Finset.sum_congr rfl fun k _ => ?_
    have el : lidx_main_v26 (ix2 r c) (lo k) = ix2 r (lo k) := funext fun a => match a with
      | ⟨0, _⟩ => rfl
      | ⟨1, _⟩ => rfl
    have er : ridx_main_v26 (ix2 r c) (lo k) = ix2 (lo k) c := funext fun a => match a with
      | ⟨0, _⟩ => rfl
      | ⟨1, _⟩ => rfl
    rw [el, er, joined_lo]
  · refine Finset.sum_congr rfl fun k _ => ?_
    have el : lidx_main_v26 (ix2 r c) (hi k) = ix2 r (hi k) := funext fun a => match a with
      | ⟨0, _⟩ => rfl
      | ⟨1, _⟩ => rfl
    have er : ridx_main_v26 (ix2 r c) (hi k) = ix2 (hi k) c := funext fun a => match a with
      | ⟨0, _⟩ => rfl
      | ⟨1, _⟩ => rfl
    rw [el, er, joined_hi]
  · exact congrArg x4 (funext fun a => match a with | ⟨0, _⟩ => rfl)

end Cert.Sage.Ref

end
-- ==== Proof.lean ====
/-
  A graph-convolution layer with mean aggregation: the kernel program and its reference compute the same array over
  the extended reals.

  Both programs first compute, by the same host operations, the weighted mean  M  of each node's in-neighbours'
  features (a row gather by source node, a product with the edge weight, a scatter-addition by destination node, and
  a division by the in-degree, at least 1). The reference then joins the features  X  and  M  along the channel axis,
  multiplies by the 256 × 128 weight matrix  W  and adds the bias  b :
      out[r, c] = Σ_{k < 256} [X | M][r, k] · W[k, c] + b[c].
  The kernel program never joins them: over 25 blocks of 2000 rows it computes
      out[r, c] = ( Σ_{k < 128} X[r, k] · W[k, c]  +  Σ_{k < 128} M[r, k] · W[128 + k, c] ) + b[c]
  from the two halves of  W , narrowing the factors to bf16 on the way (the identity on the extended reals).
  The two are equal because a sum over 256 indices is the sum of its two halves: associativity and commutativity of
  addition only, so no finiteness of the inputs is used.  M  is never opened: the two programs' terms for it are one.

  Modules: `Update` (the output as one function, the two arrangements, the sum in halves), `Body` (what the kernel
  body stores, at an entry), `Blocks` (from the 25 blocks to the whole array), `EntryArrays` (the arrays the region
  finds), `KernelRun` (the kernel program's run), `Reference` (the reference's result); `LibDense` and `LibBiasRow`
  are general lemmas on a plain matrix product and on a bias row read at an entry.
-/
import proofs.«152887_j54863912239193_1_alg».proof.Defs
import proofs.«152887_j54863912239193_1_alg».proof.Proof.Gen.Kernel
import proofs.«152887_j54863912239193_1_alg».proof.Proof.Gen.Kernel.Skeleton
import proofs.«152887_j54863912239193_1_alg».proof.Proof.Gen.Kernel.Launch
import proofs.«152887_j54863912239193_1_alg».proof.Proof.Gen.Kernel.Points
import proofs.«152887_j54863912239193_1_alg».proof.Proof.Gen.Kernel.Frame
import proofs.«152887_j54863912239193_1_alg».proof.Proof.Gen.KernelIdeal
import proofs.«152887_j54863912239193_1_alg».proof.Proof.Gen.KernelIdeal.Skeleton
import proofs.«152887_j54863912239193_1_alg».proof.Proof.Gen.KernelIdeal.Launch
import proofs.«152887_j54863912239193_1_alg».proof.Proof.Gen.KernelIdeal.Points
import proofs.«152887_j54863912239193_1_alg».proof.Proof.Gen.KernelIdeal.Frame
import proofs.«152887_j54863912239193_1_alg».proof.Proof.Gen.ReferenceIdeal
import proofs.«152887_j54863912239193_1_alg».proof.Proof.Gen.Pre_finite_inputs
import proofs.«152887_j54863912239193_1_alg».proof.Proof.Gen.KernelIdeal.Value
import proofs.«152887_j54863912239193_1_alg».proof.Proof.Gen.ReferenceIdeal.Run
import proofs.«152887_j54863912239193_1_alg».proof.Proof.Gen.ReferenceIdeal.Read
import proofs.«152887_j54863912239193_1_alg».proof.Proof.KernelRun
import proofs.«152887_j54863912239193_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer's output of those arguments:
    the kernel program by its run over the blocks, the reference by its run read stage by stage. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Sage.Ref.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
